-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384 : Shape := ⟨1, ![16384]⟩
abbrev S10000x256 : Shape := ⟨2, ![10000, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S16384 : S_.BroadcastsInDim S16384 (![] : Fin 0 → Fin S16384.rank)
  reducesTo_S16384_S_d0 : S16384.ReducesTo [0] S_
  reducesTo_S16384x256_S16384_d1 : S16384x256.ReducesTo [1] S16384

variable [Facts]

def fn_part1 {F : FTy → Type} [FloatOps F] (main_v15 : IVec S_ 1) (main_v16 : FVec F S16384x256 .f32) : IVec S_ 1 :=
  let main_cst_5 : FVec F S_ .f32 := constant S_ .f32 0x00000000#32
  let main_v17 : FVec F S16384 .f32 := (fun x v => Host.reduceAdd x v reducesTo_S16384x256_S16384_d1 h_S_) main_v16 main_cst_5
  let main_cst_6 : FVec F S_ .f32 := constant S_ .f32 0x00000000#32
  let main_v18 : FVec F S16384 .f32 := broadcastInDim S16384 ![] bcast_S_S16384 main_cst_6
  let main_v19 : IVec S16384 1 := cmpf .ogt main_v17 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v15 main_v20
  main_v21

def fn {F : FTy → Type} [FloatOps F] (main_arg0 : FVec F S16384x256 .f32) (main_arg1 : IVec S16384 32) (main_arg2 : FVec F S10000x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 10000#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_v16 : FVec F S16384x256 .f32 := mulf main_arg0 main_arg0
  fn_part1 (F := F) main_v15 main_v16
-- ==== Kernel.lean ====
abbrev S16384x256 : Shape := ⟨2, ![16384, 256]⟩
abbrev S16384 : Shape := ⟨1, ![16384]⟩
abbrev S10000x256 : Shape := ⟨2, ![10000, 256]⟩
abbrev S16384x1 : Shape := ⟨2, ![16384, 1]⟩
abbrev S256x256 : Shape := ⟨2, ![256, 256]⟩
abbrev S256x1 : Shape := ⟨2, ![256, 1]⟩
abbrev S256 : Shape := ⟨1, ![256]⟩
abbrev S256x10000 : Shape := ⟨2, ![256, 10000]⟩
abbrev S1x10000 : Shape := ⟨2, ![1, 10000]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S16384, .i32⟩
  | .hbm, ⟨2, _⟩ => ⟨S10000x256, .f32⟩
  | .hbm, ⟨3, _⟩ => ⟨S16384x1, .i32⟩
  | .hbm, ⟨4, _⟩ => ⟨S10000x256, .bf16⟩
  | .hbm, ⟨5, _⟩ => ⟨S16384x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S10000x256, .bf16⟩
  | .local _ .vmem, ⟨3, _⟩ => ⟨S256x1, .i32⟩
  | .local _ .vmem, ⟨4, _⟩ => ⟨S256x1, .i32⟩
  | .local _ .vmem, ⟨5, _⟩ => ⟨S256x1, .f32⟩
  | .local _ .vmem, ⟨6, _⟩ => ⟨S256x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S16384x1 : S16384.ShapeCasts S16384x1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  broadcasts_S256x1_S256x256 : S256x1.Broadcasts S256x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  reduces_S256x10000_S256 : S256x10000.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x10000_d1_w32 : S1x10000.Iotas .tc 32 [1]
  broadcasts_S1x10000_S256x10000 : S1x10000.Broadcasts S256x10000
  broadcasts_S256x1_S256x10000 : S256x1.Broadcasts S256x10000
  reducesTo_S16384x1_S_d0_1 : S16384x1.ReducesTo [0, 1] S_
  h_S_ : 0 < S_.numel
  dot_S256x256_S10000x256_S256x10000_1_1_0_0_n_n_wf : DotDims.WF S256x256 S10000x256 S256x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .i32 = 32 ∨ (Rect.block (s := S16384x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)

variable [Facts₀]

def dot_S256x256_S10000x256_S256x10000_1_1_0_0_n_n : DotDims S256x256 S10000x256 S256x10000 where
  lhsContracting := [1]
  rhsContracting := [1]
  lhsNonContracting := [0]
  rhsNonContracting := [0]
  lhsBatch := []
  rhsBatch := []
  wf := dot_S256x256_S10000x256_S256x10000_1_1_0_0_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384 : Shape := ⟨1, ![16384]⟩
abbrev S10000x256 : Shape := ⟨2, ![10000, 256]⟩
abbrev S_ : Shape := ⟨0, ![]⟩
abbrev S16384x1 : Shape := ⟨2, ![16384, 1]⟩
abbrev S256x10000 : Shape := ⟨2, ![256, 10000]⟩
abbrev S16384x10000 : Shape := ⟨2, ![16384, 10000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384, .i32⟩
  | .hbm, ⟨2, _⟩ => ⟨S10000x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S16384x256, .f32⟩
  | .hbm, ⟨9, _⟩ => ⟨S16384x256, .f32⟩
  | .hbm, ⟨10, _⟩ => ⟨S256x10000, .f32⟩
  | .hbm, ⟨11, _⟩ => ⟨S16384x10000, .f32⟩
  | .hbm, ⟨12, _⟩ => ⟨S16384x1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S_, .i32⟩
  | .hbm, ⟨17, _⟩ => ⟨S16384x1, .i32⟩
  | .hbm, ⟨18, _⟩ => ⟨S16384x1, .i32⟩
  | .hbm, ⟨19, _⟩ => ⟨S16384x1, .i32⟩
  | .hbm, ⟨20, _⟩ => ⟨S16384x1x1, .i32⟩
  | .hbm, ⟨21, _⟩ => ⟨S1, .i32⟩
  | .hbm, ⟨22, _⟩ => ⟨S_, .i32⟩
  | .hbm, ⟨23, _⟩ => ⟨S16384x1x1, .i32⟩
  | .hbm, ⟨24, _⟩ => ⟨S16384x1x1, .i1⟩
  | .hbm, ⟨25, _⟩ => ⟨S1x1x1, .i32⟩
  | .hbm, ⟨26, _⟩ => ⟨S16384x1x1, .i32⟩
  | .hbm, ⟨27, _⟩ => ⟨S16384x1x1, .i1⟩
  | .hbm, ⟨28, _⟩ => ⟨S16384x1x1, .i1⟩
  | .hbm, ⟨29, _⟩ => ⟨S_, .i1⟩
  | .hbm, ⟨30, _⟩ => ⟨S16384x1, .i1⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384x10000, .f32⟩
  | .hbm, ⟨44, _⟩ => ⟨S16384x10000, .f32⟩
  | .hbm, ⟨45, _⟩ => ⟨S16384x10000, .f32⟩
  | .hbm, ⟨46, _⟩ => ⟨S_, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_cst_3 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  transposes_S10000x256_S256x10000_1_0 : S10000x256.Transposes [1, 0] S256x10000
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  bcast_S_S16384x10000 : S_.BroadcastsInDim S16384x10000 (![] : Fin 0 → Fin S16384x10000.rank)
  reducesTo_S16384x10000_S16384_d1 : S16384x10000.ReducesTo [1] S16384
  reducesTo_S16384_S_d0 : S16384.ReducesTo [0] S_
  dot_S16384x256_S256x10000_S16384x10000_1_0_0_1_n_n_wf : DotDims.WF S16384x256 S256x10000 S16384x10000 [1] [0] [0] [1] [] []
  gather_S16384x10000_S16384x1x1_S16384x1_n_1_0_0_1_2_11_wf : GatherDims.WF S16384x10000 S16384x1x1 S16384x1 [] [1] [0] [1] [0] 2 ![1, 1]

variable [Facts₀]

def dot_S16384x256_S256x10000_S16384x10000_1_0_0_1_n_n : DotDims S16384x256 S256x10000 S16384x10000 where
  lhsContracting := [1]
  rhsContracting := [0]
  lhsNonContracting := [0]
  rhsNonContracting := [1]
  lhsBatch := []
  rhsBatch := []
  wf := dot_S16384x256_S256x10000_S16384x10000_1_0_0_1_n_n_wf
def gather_S16384x10000_S16384x1x1_S16384x1_n_1_0_0_1_2_11 : GatherDims S16384x10000 S16384x1x1 S16384x1 where
  offsetDims := []
  collapsedSliceDims := [1]
  operandBatchingDims := [0]
  startIndicesBatchingDims := [0]
  startIndexMap := [1]
  indexVectorDim := 2
  sliceSizes := ![1, 1]
  wf := gather_S16384x10000_S16384x1x1_S16384x1_n_1_0_0_1_2_11_wf

class Facts : Prop extends Facts₀ where

variable [Facts]
-- ==== Proof.MarginLoss.lean ====
/-
  The mathematics both programs compute, on the extended reals.

  For one row `xr : Fin 256 → EReal` of the embeddings, a weight table `W : Fin 10000 → Fin 256 → EReal` and
  a label word `l`:
    the squared norm        s      = ∑ d, xr d · xr d
    the logit of class c    wf c   = ∑ d, (xr d · s^(-1/2)) · W c d
    the target logit        tgt    = wf (the label's column)
    the numerator           num    = 30 · (tgt − 0.4)
    the row's loss term     L      = num − log (exp num + ((∑ c, exp (30 · wf c)) − exp (30 · tgt)))
  and the result is minus the mean of `L` over the 16384 rows. The constants 30, 0.4 and 16384 stay the words both
  programs print; only the zero a sum starts from is read (`0`).

  Two laws join the programs to this form.
  * `x · s^(-1/2) = x / √s` for every extended real `0 < s` (the reference divides by the norm): both sides are
    `x · (√s)⁻¹` for a positive real `s`, and `x · 0` at `s = ⊤`. At `s = 0` they differ (`0 · ⊤ = 0` against the junk
    value of `0 / 0`), which is why the statement keeps every row's squared norm positive.
  * A sum over the classes of "the logit where the class is the label, else zero" is the logit at the label, for a
    label inside the table.
-/
import Idealize.ShloMosaic.PureOps.Ideal
import Idealize.ShloMosaic.PureOps.Ideal.Laws
import Idealize.ShloMosaic.Lib.ValueIdx
import Idealize.ShloMosaic.Lib.Affine

noncomputable section

namespace Cert.MarginLoss

open Idealize.ShloMosaic

/-- The scale `30`, the margin `0.4` and the row count `16384` as the f32 words both programs carry. -/
abbrev scale : EReal := Ideal.ofBits .f32 0x41F00000#32
abbrev margin : EReal := Ideal.ofBits .f32 0x3ECCCCCD#32
abbrev rows : EReal := Ideal.ofBits .f32 0x46800000#32

/-- A row's squared norm. -/
def sqNorm (xr : Fin 256 → EReal) : EReal := ∑ d : Fin 256, xr d * xr d

/-- The logit of class `c`: the normalised row against row `c` of the weights. -/
def logit (xr : Fin 256 → EReal) (W : Fin 10000 → Fin 256 → EReal) (c : Fin 10000) : EReal :=
  ∑ d : Fin 256, (xr d * Ideal.rsqrt (sqNorm xr)) * W c d

/-- The loss term of a row from its logits and its target logit. -/
def lossTerm (wf : Fin 10000 → EReal) (tgt : EReal) : EReal :=
  scale * (tgt - margin)
    - Ideal.log (Ideal.exp (scale * (tgt - margin)) + ((∑ c : Fin 10000, Ideal.exp (scale * wf c)) - Ideal.exp (scale * tgt)))

/-- The column a label word selects: its signed value, kept inside the table. -/
def labelCol (l : BitVec 32) : Fin 10000 := ⟨min l.toInt.toNat 9999, by omega⟩

/-- A row's loss term from the row, the weights and the row's label. -/
def rowLoss (xr : Fin 256 → EReal) (W : Fin 10000 → Fin 256 → EReal) (l : BitVec 32) : EReal :=
  lossTerm (logit xr W) (logit xr W (labelCol l))

/-- The result: minus the mean of the rows' loss terms. -/
def meanLoss (L : Fin 16384 → EReal) : EReal := -(Ideal.div (∑ i : Fin 16384, L i) rows)

/-- Row `i` of an `[N, 256]` table, and the weight table, as functions of their coordinates. -/
abbrev rowOf {N : Nat} (x : (⟨2, ![N, 256]⟩ : Shape).Idx → EReal) (i : Fin N) : Fin 256 → EReal :=
  fun d => x (ValueIdx.ix2 i d)
abbrev matOf (W : (⟨2, ![10000, 256]⟩ : Shape).Idx → EReal) : Fin 10000 → Fin 256 → EReal :=
  fun c d => W (ValueIdx.ix2 c d)

/-- The whole computation: every row's loss term from the three inputs, then minus their mean. -/
def result (x : (⟨2, ![16384, 256]⟩ : Shape).Idx → EReal) (lab : (⟨1, ![16384]⟩ : Shape).Idx → BitVec 32)
    (W : (⟨2, ![10000, 256]⟩ : Shape).Idx → EReal) : EReal :=
  meanLoss fun i => rowLoss (rowOf x i) (matOf W) (lab (ValueIdx.ix1 i))

/-- A sum over a rank-1 index set is the sum over its coordinate. -/
theorem sum_idx1 {M : Type*} [AddCommMonoid M] {n : Nat} (f : (⟨1, ![n]⟩ : Shape).Idx → M) :
    ∑ j, f j = ∑ i : Fin n, f (ValueIdx.ix1 i) := by
  let e : (⟨1, ![n]⟩ : Shape).Idx ≃ Fin n :=
    { toFun := fun j => j 0, invFun := ValueIdx.ix1, left_inv := fun j => (ValueIdx.eq_ix1 j).symm, right_inv := fun _ => rfl }
  rw [← Equiv.sum_comp e.symm f]
  rfl

/-- A sum over the index set of a column `[n, 1]` is the sum over its rows. -/
theorem sum_idx_col {M : Type*} [AddCommMonoid M] {n : Nat} (f : (⟨2, ![n, 1]⟩ : Shape).Idx → M) :
    ∑ j, f j = ∑ i : Fin n, f (ValueIdx.ix2 i (0 : Fin 1)) := by
  rw [ValueIdx.sum_idx2]
  exact Finset.sum_congr rfl fun i _ => Fin.sum_univ_one _

/-- `x · s^(-1/2) = x / √s` on the extended reals, for `0 < s`. -/
theorem mul_rsqrt_eq_div_sqrt (x s : EReal) (hs : 0 < s) : x * Ideal.rsqrt s = Ideal.div x (Ideal.sqrt s) := by
  induction s using EReal.rec with
  | bot => exact absurd hs (not_lt.mpr bot_le)
  | top =>
    rw [Ideal.rsqrt_top, Ideal.sqrt_top, Ideal.div, if_neg EReal.top_ne_zero, EReal.inv_top]
  | coe r =>
    have hr : 0 < r := EReal.coe_pos.mp hs
    have hsq : 0 < Real.sqrt r := Real.sqrt_pos.mpr hr
    rw [Ideal.rsqrt_coe, if_neg (not_lt.mpr hr.le), if_neg hr.ne', Ideal.sqrt_coe, if_neg (not_lt.mpr hr.le),
      Ideal.div, if_neg (by exact_mod_cast hsq.ne'), EReal.coe_inv]

/-- A label word that is a column of the table, as a signed integer, selects that column. -/
theorem labelCol_val (l : BitVec 32) (h0 : 0 ≤ l.toInt) (h1 : l.toInt < 10000) : (labelCol l).val = l.toNat := by
  have ht : l.toInt = (l.toNat : Int) := by
    rcases BitVec.toInt_eq_toNat_cond l with h
    rw [h]; split
    · rfl
    · rename_i hh
      rw [h] at h0; rw [if_neg hh] at h0
      have := l.isLt; omega
  show min l.toInt.toNat 9999 = l.toNat
  omega

/-- The class counter `k`, as a word, equals an in-range label word exactly at the label's column. -/
theorem mask_iff (l : BitVec 32) (h0 : 0 ≤ l.toInt) (h1 : l.toInt < 10000) (k : Fin 10000) :
    IntOp.cmpi .eq (BitVec.ofNat 32 k.val) l = 1#1 ↔ k = labelCol l := by
  have hv := labelCol_val l h0 h1
  rw [IntOp.cmpi_eq]
  constructor
  · intro h
    refine Fin.ext ?_
    rw [hv, ← h, BitVec.toNat_ofNat]
    have := k.isLt
    omega
  · intro h
    rw [h, hv, BitVec.ofNat_toNat, BitVec.setWidth_eq]

/-- The sum over the classes of "the logit where the class is the label, else zero" is the logit at the label. -/
theorem sum_masked (wf : Fin 10000 → EReal) (k : Fin 10000) :
    (∑ c : Fin 10000, if c = k then wf c else 0) = wf k := by
  rw [Finset.sum_ite_eq' Finset.univ k wf, if_pos (Finset.mem_univ k)]

end Cert.MarginLoss

end
-- ==== Proof.PreFacts.lean ====
/-
  What the precondition says of the inputs, read at the extended reals: every label word is a column of the
  weight table as a signed integer (`0 ≤ l < 10000`), and every row of the embeddings has a positive squared norm.
  (Its two finiteness conjuncts are not used: the one law the proof needs holds at every positive squared norm,
  `⊤` included.)
-/
import proofs.«408630_j77524159693169_1_alg».proof.Pre_finite_inputs
import proofs.«408630_j77524159693169_1_alg».proof.Proof.Gen.Pre_finite_inputs
import proofs.«408630_j77524159693169_1_alg».proof.Proof.MarginLoss
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- The ordered "greater than" on the extended reals answers 1 exactly at `b < a`. -/
theorem cmp_ogt_eq_one {a b : EReal} : Ideal.cmp .ogt a b = 1#1 ↔ b < a := by
  unfold Ideal.cmp
  simp only [StableHlo.Predicate.ofBool_eq_one_iff, decide_eq_true_eq]

theorem of_pre (x : FVec Ideal S16384x256 .f32) (lab : IVec S16384 32) (W : FVec Ideal S10000x256 .f32)
    (h : Cert.Pre_finite_inputs.fn (F := Ideal) x lab W = fun _ => 1#1) :
    (∀ i : Fin 16384, 0 ≤ (lab (ix1 i)).toInt ∧ (lab (ix1 i)).toInt < 10000)
      ∧ ∀ i : Fin 16384, 0 < Cert.MarginLoss.sqNorm (fun d => x (ix2 i d)) := by
  have h0 := congrFun h ix0
  dsimp only [fn, fn_part1] at h0
  obtain ⟨h123, h4⟩ := IntOp.andi_eq_one.1 h0
  obtain ⟨-, h3⟩ := IntOp.andi_eq_one.1 h123
  refine ⟨fun i => ?_, fun i => ?_⟩
  · -- the label conjunct: both signed comparisons hold at every row
    obtain ⟨ea, eb⟩ := IntOp.andi_eq_one.1 (Host.reduce_andi_all _ _ _ _ _ h3 (ix1 i))
    have ha : (0#32 : BitVec 32).toInt ≤ (lab (ix1 i)).toInt := IntOp.cmpi_sge.1 ea
    have hb : (lab (ix1 i)).toInt < (10000#32 : BitVec 32).toInt := IntOp.cmpi_slt.1 eb
    have z0 : (0#32 : BitVec 32).toInt = 0 := by decide
    have z1 : (10000#32 : BitVec 32).toInt = 10000 := by decide
    omega
  · -- the norm conjunct: the row's sum of squares, as the host forms it, is above the zero word
    have e := Host.reduce_andi_all _ _ _ _ _ h4 (ix1 i)
    rw [cmpf_apply, Ideal.cmpf_def] at e
    have e2 := cmp_ogt_eq_one.1 e
    simp only [Host.reduceAdd, Ideal.hostReduceAdd_def] at e2
    rw [Ideal.hostReduceAdd_single reducesTo_S16384x256_S16384_d1 (by decide)] at e2
    have hb : ∀ hh : S_.BroadcastsInDim S16384 (![] : Fin 0 → Fin S16384.rank),
        broadcastInDim S16384 ![] hh (constant (F := Ideal) S_ .f32 0x00000000#32) (ix1 i) = 0 :=
      fun _ => Ideal.ofBits_zero_f32
    have hz : ∀ j : S_.Idx, constant (F := Ideal) S_ .f32 0x00000000#32 j = 0 := fun _ => Ideal.ofBits_zero_f32
    rw [hb, hz, zero_add] at e2
    unfold Cert.MarginLoss.sqNorm
    refine lt_of_lt_of_eq e2 (Finset.sum_congr rfl fun k _ => ?_)
    exact congrArg (fun j => x j * x j)
      (funext fun a => Fin.ext (by match a with | ⟨0, _⟩ => rfl | ⟨1, _⟩ => rfl))

end Cert.PreFacts

end
-- ==== Proof.LibTakeAlongAxis.lean ====
/-
  `jnp.take_along_axis(x, idx[:, None], axis=1)` on a table `x : [N, C]` with one index per row, read at an entry.

  It lowers to `stablehlo.gather` with the row axis as a batching axis on both sides (operand_batching_dims `[0]`,
  start_indices_batching_dims `[0]`), the column axis collapsed and named by the start index (collapsed_slice_dims
  `[1]`, start_index_map `[1]`), slice sizes `[1, 1]`, no offset axes, and the indices as `[N, 1, 1]` with the index
  vector on axis 2. Result element `(i, 0)` is `x` at row `i` and at the column `idx[i, 0, 0]` read as a signed integer
  and kept inside `[0, C − 1]`, as StableHLO's gather clamps every start index. For any `N`, `C` and word width.
-/
import Idealize.ShloMosaic.Lib.ValueIdx

noncomputable section

namespace Idealize.ShloMosaic.TakeAlongAxis

open Idealize.ShloMosaic Idealize.ShloMosaic.ValueIdx

variable {α : Type}

/-- Those dimension numbers for an operand `[N, C]`, start indices `[N, 1, 1]` and result `[N, 1]`; their conditions
    `wf` are decided on a program's literal shapes. -/
abbrev alongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- On the row axis, a batching axis, the operand index is the result's own row: no start index, no offset. -/
theorem operand_row {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (i : Fin N) :
    (alongDims N C wf).start (ix2 i (0 : Fin 1)) idx (0 : Fin 2) + (alongDims N C wf).batchCoord (ix2 i (0 : Fin 1)) (0 : Fin 2)
      + (alongDims N C wf).offCoord (ix2 i (0 : Fin 1)) (0 : Fin 2) = i.val := by
  have hb : (0 : Fin 2) ∈ (alongDims N C wf).operandBatchingDims := List.mem_singleton.mpr rfl
  rw [GatherDims.start_batching _ _ _ _ hb,
    GatherDims.offCoord_eq_zero _ _ _ (fun h => ((GatherDims.mem_sKept _ _).mp h).2 hb)]
  simp only [Nat.zero_add, Nat.add_zero]
  unfold GatherDims.batchCoord
  rw [dif_pos hb]
  rfl

/-- On the column axis, named by the start index and collapsed, it is the row's index read signed and kept
    inside `[0, C − 1]`, with nothing added. -/
theorem operand_col {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (i : Fin N) :
    (alongDims N C wf).start (ix2 i (0 : Fin 1)) idx (1 : Fin 2) + (alongDims N C wf).batchCoord (ix2 i (0 : Fin 1)) (1 : Fin 2)
      + (alongDims N C wf).offCoord (ix2 i (0 : Fin 1)) (1 : Fin 2)
      = min (idx (ix3 i (0 : Fin 1) (0 : Fin 1))).toInt.toNat (C - 1) := by
  have hnb : (1 : Fin 2) ∉ (alongDims N C wf).operandBatchingDims :=
    fun h => absurd (congrArg Fin.val (List.mem_singleton.mp h)) Nat.one_ne_zero
  have hc : (1 : Fin 2) ∈ (alongDims N C wf).collapsedSliceDims := List.mem_singleton.mpr rfl
  rw [GatherDims.batchCoord_eq_zero _ _ _ hnb,
    GatherDims.offCoord_eq_zero _ _ _ (fun h => ((GatherDims.mem_sKept _ _).mp h).1 (List.mem_append_left _ hc))]
  simp only [Nat.add_zero]
  unfold GatherDims.start
  rw [dif_pos (show (1 : Fin 2) ∈ (alongDims N C wf).startIndexMap from List.mem_singleton.mpr rfl)]
  have hsi : (alongDims N C wf).siIdx (ix2 i (0 : Fin 1)) ⟨List.idxOf (1 : Fin 2) (alongDims N C wf).startIndexMap,
      List.idxOf_lt_length_iff.2 (List.mem_singleton.mpr rfl)⟩ = ix3 i (0 : Fin 1) (0 : Fin 1) := by
    funext b; refine Fin.ext ?_
    match b with
    | ⟨0, _⟩ => rfl
    | ⟨1, _⟩ => rfl
    | ⟨2, _⟩ => rfl
  rw [hsi]
  rfl

/-- THE GATHER READ AT `(i, 0)`: the table at row `i` and the column the row's index names, read signed and kept
    inside `[0, C − 1]`. -/
theorem gather_along_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (i : Fin N) :
    Host.gather (alongDims N C wf) x idx (ix2 i (0 : Fin 1))
      = x (ix2 i ⟨min (idx (ix3 i (0 : Fin 1) (0 : Fin 1))).toInt.toNat (C - 1), by omega⟩) := by
  unfold Host.gather
  congr 1
  funext a
  refine Fin.ext ?_
  show (alongDims N C wf).start (ix2 i (0 : Fin 1)) idx a + (alongDims N C wf).batchCoord (ix2 i (0 : Fin 1)) a
      + (alongDims N C wf).offCoord (ix2 i (0 : Fin 1)) a = _
  match a with
  | ⟨0, _⟩ => exact operand_row wf idx i
  | ⟨1, _⟩ => exact operand_col wf idx i

end Idealize.ShloMosaic.TakeAlongAxis

end
-- ==== Proof.RefIsSpec.lean ====
/-
  The reference's result is the specification, under the two facts the precondition gives: every label is a column
  of the weight table, and every row's squared norm is positive.

  Read operation by operation: the host forms `s = 0 + ∑ x²`, divides the row by `√s` (which is the row times
  `s^(-1/2)` at `0 < s`), contracts with the transposed weights (the logits), takes the logit at the row's label —
  the gather's index is the label itself, a non-negative label being left as it is and an in-range one passing the
  bounds test, so the NaN fill is never selected — and then applies the same scalar formula as the specification.
-/
import proofs.«408630_j77524159693169_1_alg».proof.Proof.RefRead
import proofs.«408630_j77524159693169_1_alg».proof.Proof.MarginLoss
import proofs.«408630_j77524159693169_1_alg».proof.Proof.LibTakeAlongAxis
import Idealize.ShloMosaic.Lib.Affine
import Idealize.ShloMosaic.Lib.ValueIdx
import Idealize.ShloMosaic.PureOps.Reduce

noncomputable section

namespace Cert.ReferenceIdeal.RefSpec

open Cert.ReferenceIdeal Cert.ReferenceIdeal.Gen Cert.ReferenceIdeal.ReadP
open Idealize.ShloMosaic Idealize.ShloMosaic.ValueIdx Cert.MarginLoss

variable (x : (⟨S16384x256, .f32⟩ : BufTy).Contents (Elt Ideal)) (lab : (⟨S16384, .i32⟩ : BufTy).Contents (Elt Ideal))
  (W : (⟨S10000x256, .f32⟩ : BufTy).Contents (Elt Ideal))

/-- The host's sum of a row's squares is the row's squared norm. -/
theorem sq_eq (i : Fin 16384) : val_main_call0_v1 (F := Ideal) x (ix1 i) = sqNorm (rowOf x i) := by
  rw [val_main_call0_v1_apply]
  have hz : val_main_call0_cst (F := Ideal) (Shape.Idx.first h_S_) = 0 := Ideal.ofBits_zero_f32
  rw [hz, zero_add]
  unfold sqNorm
  refine Finset.sum_congr rfl fun k _ => ?_
  rw [val_main_call0_v0_apply]
  exact congrArg (fun j => x j * x j)
    (funext fun a => Fin.ext (by match a with | ⟨0, _⟩ => rfl | ⟨1, _⟩ => rfl))

/-- The normalised entry: the host's quotient by the norm is the product with `s^(-1/2)`. -/
theorem xn_eq (i : Fin 16384) (d : Fin 256) (hs : 0 < sqNorm (rowOf x i)) :
    val_main_v2 (F := Ideal) x (ix2 i d) = x (ix2 i d) * Ideal.rsqrt (sqNorm (rowOf x i)) := by
  rw [val_main_v2_apply, val_main_v1_apply, val_main_v0_apply, val_main_call0_v2_apply]
  have hi : idx_main_call0_v2 (idx_main_v1 (ix2 i d)) = ix1 i :=
    funext fun a => Fin.ext (by match a with | ⟨0, _⟩ => rfl)
  rw [hi, sq_eq]
  exact (mul_rsqrt_eq_div_sqrt _ _ hs).symm

/-- The logits: the host's contraction of the normalised row with the transposed weights. -/
theorem logit_eq (i : Fin 16384) (c : Fin 10000) (hs : 0 < sqNorm (rowOf x i)) :
    val_main_v4 (F := Ideal) x W (ix2 i c) = logit (rowOf x i) (matOf W) c := by
  rw [val_main_v4_apply]
  unfold logit
  refine Finset.sum_congr rfl fun k _ => ?_
  have hl : lidx_main_v4 (ix2 i c) k = ix2 i k :=
    funext fun a => Fin.ext (by match a with | ⟨0, _⟩ => rfl | ⟨1, _⟩ => rfl)
  have hr : idx_main_v3 (ridx_main_v4 (ix2 i c) k) = ix2 c k :=
    funext fun a => Fin.ext (by match a with | ⟨0, _⟩ => rfl | ⟨1, _⟩ => rfl)
  rw [val_main_v3_apply, hl, hr, xn_eq x i k hs]

/-- The row of an index of the `[16384, 1, 1]` array of gather indices. -/
abbrev rowIdx (j : S16384x1x1.Idx) : Fin 16384 := ⟨(j 0).val, (j 0).isLt⟩

/-- The index word the gather reads at `j` is the label of `j`'s row: a non-negative label is left as it is (the
    "add the extent to a negative index" branch is not taken). -/
theorem idx_eq (j : S16384x1x1.Idx) (h0 : 0 ≤ (lab (ix1 (rowIdx j))).toInt) :
    val_main_call1_v5 (F := Ideal) lab j = lab (ix1 (rowIdx j)) := by
  rw [val_main_call1_v5_apply, val_main_call1_v4_apply, val_main_call1_v1_apply, val_main_v5_apply,
    val_main_call1_v0_apply, val_main_call1_c_apply]
  have hi : idx_main_v5 (idx_main_call1_v5 j) = ix1 (rowIdx j) :=
    funext fun a => Fin.ext (by
      match a with
      | ⟨0, _⟩ =>
        have h1 : (j 1).val < 1 := (j 1).isLt
        have h2 : (j 2).val < 1 := (j 2).isLt
        show (((j 0).val * 1 + (j 1).val) * 1 + (j 2).val) / 1 = (j 0).val
        omega)
  rw [hi]
  have hc : IntOp.cmpi .slt (lab (ix1 (rowIdx j))) 0#32 = 0#1 :=
    eq_zero_of_ne_one fun h => by
      have := IntOp.cmpi_slt.1 h
      have z : (0#32 : BitVec 32).toInt = 0 := by decide
      omega
  rw [hc, select_zero]

/-- A fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_ones f l fun n hn => h n (List.mem_cons_of_mem _ hn)

/-- The bounds test of the gather passes at every row: an in-range label is between 0 and 9999. -/
theorem inb_eq (hlab : ∀ i : Fin 16384, 0 ≤ (lab (ix1 i)).toInt ∧ (lab (ix1 i)).toInt < 10000) (y : S16384x1.Idx) :
    val_main_call1_v12 (F := Ideal) lab y = 1#1 := by
  unfold val_main_call1_v12
  rw [Host.reduce_eq_foldl]
  have hinit : val_main_call1_c_3 (F := Ideal) (Shape.Idx.first h_S_) = 1#1 := rfl
  rw [hinit]
  refine foldl_andi_ones _ _ fun j _ => ?_
  rw [val_main_call1_v11_apply, val_main_call1_v7_apply, val_main_call1_v10_apply, val_main_call1_v6_apply,
    val_main_call1_c_2_apply, val_main_call1_v9_apply, val_main_call1_v8_apply, val_main_call1_c_1_apply,
    idx_eq lab j (hlab _).1]
  have z0 : (0#32 : BitVec 32).toInt = 0 := by decide
  have z1 : (9999#32 : BitVec 32).toInt = 9999 := by decide
  have hh := hlab (rowIdx j)
  exact IntOp.andi_eq_one.2 ⟨IntOp.cmpi_sge.2 (by omega), IntOp.cmpi_sle.2 (by omega)⟩

/-- The gather reads row `i` of the logits at the column the row's label names. -/
theorem gather_eq (i : Fin 16384) (h0 : 0 ≤ (lab (ix1 i)).toInt) :
    val_main_call1_v13 (F := Ideal) x lab W (ix2 i (0 : Fin 1))
      = val_main_v4 (F := Ideal) x W (ix2 i (labelCol (lab (ix1 i)))) := by
  unfold val_main_call1_v13
  show Host.gather (TakeAlongAxis.alongDims 16384 10000 gather_S16384x10000_S16384x1x1_S16384x1_n_1_0_0_1_2_11_wf)
    (val_main_v4 (F := Ideal) x W) (val_main_call1_v5 (F := Ideal) lab) (ix2 i (0 : Fin 1)) = _
  rw [TakeAlongAxis.gather_along_apply (by decide)]
  refine congrArg (val_main_v4 (F := Ideal) x W) (funext fun a => Fin.ext ?_)
  match a with
  | ⟨0, _⟩ => rfl
  | ⟨1, _⟩ =>
    show min (val_main_call1_v5 (F := Ideal) lab (ix3 i (0 : Fin 1) (0 : Fin 1))).toInt.toNat (10000 - 1)
      = (labelCol (lab (ix1 i))).val
    rw [idx_eq lab (ix3 i (0 : Fin 1) (0 : Fin 1)) h0]
    rfl

/-- The target logit: the bounds test passes, so the gathered entry is selected, never the NaN fill. -/
theorem tgt_eq (hlab : ∀ i : Fin 16384, 0 ≤ (lab (ix1 i)).toInt ∧ (lab (ix1 i)).toInt < 10000) (i : Fin 16384)
    (hs : 0 < sqNorm (rowOf x i)) :
    val_main_v7 (F := Ideal) x lab W (ix1 i) = logit (rowOf x i) (matOf W) (labelCol (lab (ix1 i))) := by
  rw [val_main_v7_apply, val_main_v6_apply]
  have hi : idx_main_v7 (ix1 i) = ix2 i (0 : Fin 1) :=
    funext fun a => Fin.ext (by
      match a with
      | ⟨0, _⟩ => show i.val / 1 = i.val; omega
      | ⟨1, _⟩ => rfl)
  rw [hi, inb_eq lab hlab, select_one, gather_eq x lab W i (hlab i).1, logit_eq x W i _ hs]

/-- The sum over the classes of the exponentials of the scaled logits. -/
theorem sumexp_eq (i : Fin 16384) (hs : 0 < sqNorm (rowOf x i)) :
    val_main_v15 (F := Ideal) x W (ix1 i) = ∑ c : Fin 10000, Ideal.exp (scale * logit (rowOf x i) (matOf W) c) := by
  rw [val_main_v15_apply]
  have hz : val_main_cst_2 (F := Ideal) (Shape.Idx.first h_S_) = 0 := Ideal.ofBits_zero_f32
  rw [hz, zero_add]
  refine Finset.sum_congr rfl fun k _ => ?_
  have hk : idx_main_v15 (ix1 i) k = ix2 i k :=
    funext fun a => Fin.ext (by match a with | ⟨0, _⟩ => rfl | ⟨1, _⟩ => rfl)
  rw [hk, val_main_v14_apply, val_main_v13_apply, val_main_v12_apply, val_main_cst_1_apply, logit_eq x W i k hs]
  rfl

/-- A row's loss term, as the reference forms it, is the specification's. -/
theorem row_eq (hlab : ∀ i : Fin 16384, 0 ≤ (lab (ix1 i)).toInt ∧ (lab (ix1 i)).toInt < 10000) (i : Fin 16384)
    (hs : 0 < sqNorm (rowOf x i)) :
    val_main_v23 (F := Ideal) x lab W (ix1 i) = rowLoss (rowOf x i) (matOf W) (lab (ix1 i)) := by
  rw [val_main_v23_apply, val_main_v22_apply, val_main_v21_apply, val_main_v20_apply, val_main_v19_apply,
    val_main_v18_apply, val_main_v17_apply, val_main_v16_apply, val_main_cst_3_apply, val_main_v11_apply,
    val_main_v10_apply, val_main_cst_0_apply, val_main_v9_apply, val_main_v8_apply, val_main_cst_apply,
    tgt_eq x lab W hlab i hs, sumexp_eq x W i hs]
  rfl

/-- THE REFERENCE'S RESULT is the specification of the three inputs. -/
theorem result_eq (hlab : ∀ i : Fin 16384, 0 ≤ (lab (ix1 i)).toInt ∧ (lab (ix1 i)).toInt < 10000)
    (hsq : ∀ i : Fin 16384, 0 < sqNorm (rowOf x i)) :
    val_main_v26 (F := Ideal) x lab W = fun _ => result x lab W := by
  funext j
  rw [val_main_v26_apply, val_main_v25_apply, val_main_v24_apply, val_main_cst_5_apply]
  have hz : val_main_cst_4 (F := Ideal) (Shape.Idx.first h_S_) = 0 := Ideal.ofBits_zero_f32
  rw [hz, zero_add, sum_idx1]
  rw [Finset.sum_congr rfl fun i _ => row_eq x lab W hlab i (hsq i)]
  rfl

end Cert.ReferenceIdeal.RefSpec

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelRow.lean ====
/-
  What the kernel body stores, read at a row of the block, at the extended reals.

  The body's one payload is cut into named pieces — the block's squared norms as a column, the normalised block, the
  logits (the matmul against the whole weight table onto a zero accumulator), the label mask (the class counter
  compared with the row's label), the target logit (the lane sum of the masked logits) and the lane sum of the
  exponentials — and each piece is read at an index: a lane sum is the sum over the row, a column broadcast along the
  rows reads the column, a change of float format is the identity. The payload is those pieces composed, by unfolding.
  Row `r` of the stored column is then the specification's loss term of row `r` of the embeddings block, the weight
  table and the row's label, for a label that is a column of the table.
-/
import proofs.«408630_j77524159693169_1_alg».proof.Proof.Gen.KernelIdeal.Skeleton
import proofs.«408630_j77524159693169_1_alg».proof.Proof.MarginLoss
import proofs.«408630_j77524159693169_1_alg».proof.Proof.LibKeepdims
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen
open Idealize.ShloMosaic Idealize.ShloMosaic.ValueIdx Idealize.ShloMosaic.Keepdims Cert.MarginLoss

variable (x0 : FVec Ideal S256x256 .f32) (w : FVec Ideal S10000x256 .bf16) (l : IVec S256x1 32)

/-- The block's squared norms, as a column. -/
def sqV : FVec Ideal S256x1 .f32 :=
  shapeCast S256x1 (multiReduction .add [1] S256 (mulf x0 x0) 0x00000000#32 reduces_S256x256_S256 (.inl rfl) rfl) shapeCasts_S256_S256x1

/-- The normalised block (the change of float format is the identity here). -/
def xnV : FVec Ideal S256x256 .bf16 :=
  truncf .bf16 (mulf x0 (broadcastTo S256x256 (rsqrt (sqV x0)) broadcasts_S256x1_S256x256)) bitsLt_bf16_f32

/-- The logits of the block's rows against every class. -/
def wfV : FVec Ideal S256x10000 .f32 :=
  matmul dot_S256x256_S10000x256_S256x10000_1_1_0_0_n_n none (xnV x0) (shapeCast S10000x256 w shapeCasts_S10000x256_S10000x256)
    (constant S256x10000 .f32 0x00000000#32)

/-- The label mask: the class counter against the row's label. -/
def maskV : IVec S256x10000 1 :=
  cmpi .eq (broadcastTo S256x10000 (iota .tc S1x10000 32 [1] iota_S1x10000_d1_w32) broadcasts_S1x10000_S256x10000)
    (broadcastTo S256x10000 (shapeCast S256x1 l shapeCasts_S256x1_S256x1) broadcasts_S256x1_S256x10000)

/-- The target logit of each row, as a column: the lane sum of the masked logits. -/
def tgtV : FVec Ideal S256x1 .f32 :=
  shapeCast S256x1 (multiReduction .add [1] S256 (select (maskV l) (wfV x0 w) (broadcast S256x10000 (Scalar.ofBits .f32 0x00000000#32)))
    0x00000000#32 reduces_S256x10000_S256 (.inl rfl) rfl) shapeCasts_S256_S256x1

/-- The lane sum of the exponentials of the scaled logits, as a column. -/
def sumexpV : FVec Ideal S256x1 .f32 :=
  shapeCast S256x1 (multiReduction .add [1] S256 (exp (mulf (broadcast S256x10000 (Scalar.ofBits .f32 0x41F00000#32)) (wfV x0 w)))
    0x00000000#32 reduces_S256x10000_S256 (.inl rfl) rfl) shapeCasts_S256_S256x1

/-- The payload is those pieces composed. -/
theorem pay_struct : k0_pay1 (F := Ideal) x0 w l =
    subf (mulf (broadcast S256x1 (Scalar.ofBits .f32 0x41F00000#32)) (subf (tgtV x0 w l) (broadcast S256x1 (Scalar.ofBits .f32 0x3ECCCCCD#32))))
      (log (addf (exp (mulf (broadcast S256x1 (Scalar.ofBits .f32 0x41F00000#32)) (subf (tgtV x0 w l) (broadcast S256x1 (Scalar.ofBits .f32 0x3ECCCCCD#32)))))
        (subf (sumexpV x0 w) (exp (mulf (broadcast S256x1 (Scalar.ofBits .f32 0x41F00000#32)) (tgtV x0 w l)))))) := rfl

/-- The squared norm of row `r` of the block. -/
theorem sqV_apply (r : Fin 256) (u : Fin 1) : sqV x0 (ix2 r u) = sqNorm (rowOf x0 r) := by
  unfold sqV
  refine (shapeCast_a_a1_apply _ _ r u).trans ?_
  exact laneSum_apply _ _ _ _ _ r

/-- An entry of the normalised block. -/
theorem xnV_apply (r d : Fin 256) : xnV x0 (ix2 r d) = x0 (ix2 r d) * Ideal.rsqrt (sqNorm (rowOf x0 r)) := by
  unfold xnV
  show x0 (ix2 r d) * broadcastTo S256x256 (rsqrt (sqV x0)) broadcasts_S256x1_S256x256 (ix2 r d) = _
  rw [broadcastTo_a1_ab_apply]
  show x0 (ix2 r d) * Ideal.rsqrt (sqV x0 (ix2 r (0 : Fin 1))) = _
  rw [sqV_apply]

/-! The matmul's operand indices, axis by axis: it contracts the second axis of both operands. -/

theorem lhs_0 (i : S256x10000.Idx) (q : dot_S256x256_S10000x256_S256x10000_1_1_0_0_n_n.contr.Idx) :
    (dot_S256x256_S10000x256_S256x10000_1_1_0_0_n_n.lhsIdx i q 0).val = (i 0).val := by
  unfold DotDims.lhsIdx
  rw [dif_neg (show ¬(0 : Fin S256x256.rank) ∈ dot_S256x256_S10000x256_S256x10000_1_1_0_0_n_n.lhsBatch by decide), dif_pos (show (0 : Fin S256x256.rank) ∈ dot_S256x256_S10000x256_S256x10000_1_1_0_0_n_n.lhsNonContracting by decide)]
  rfl
theorem lhs_1 (i : S256x10000.Idx) (q : dot_S256x256_S10000x256_S256x10000_1_1_0_0_n_n.contr.Idx) :
    (dot_S256x256_S10000x256_S256x10000_1_1_0_0_n_n.lhsIdx i q 1).val = (q ⟨0, by decide⟩).val :=
  dot_S256x256_S10000x256_S256x10000_1_1_0_0_n_n.lhsIdx_val_of_single rfl i q
theorem rhs_0 (i : S256x10000.Idx) (q : dot_S256x256_S10000x256_S256x10000_1_1_0_0_n_n.contr.Idx) :
    (dot_S256x256_S10000x256_S256x10000_1_1_0_0_n_n.rhsIdx i q 0).val = (i 1).val := by
  unfold DotDims.rhsIdx
  rw [dif_neg (show ¬(0 : Fin S10000x256.rank) ∈ dot_S256x256_S10000x256_S256x10000_1_1_0_0_n_n.rhsBatch by decide), dif_pos (show (0 : Fin S10000x256.rank) ∈ dot_S256x256_S10000x256_S256x10000_1_1_0_0_n_n.rhsNonContracting by decide)]
  rfl
theorem rhs_1 (i : S256x10000.Idx) (q : dot_S256x256_S10000x256_S256x10000_1_1_0_0_n_n.contr.Idx) :
    (dot_S256x256_S10000x256_S256x10000_1_1_0_0_n_n.rhsIdx i q 1).val = (q ⟨0, by decide⟩).val :=
  dot_S256x256_S10000x256_S256x10000_1_1_0_0_n_n.rhsIdx_val_of_single rfl i q

/-- The logit of row `r` and class `c`: the matmul onto the zero accumulator is the plain contraction. -/
theorem wfV_apply (r : Fin 256) (c : Fin 10000) : wfV x0 w (ix2 r c) = logit (rowOf x0 r) (matOf w) c := by
  unfold wfV
  refine (Ideal.matmul_constant_zero_apply dot_S256x256_S10000x256_S256x10000_1_1_0_0_n_n none (xnV x0)
    (shapeCast S10000x256 w shapeCasts_S10000x256_S10000x256) (ix2 r c)).trans ?_
  rw [← Equiv.sum_comp (ValueIdx.contrEquiv1 dot_S256x256_S10000x256_S256x10000_1_1_0_0_n_n 256 rfl rfl).symm]
  unfold logit
  refine Finset.sum_congr rfl fun k _ => ?_
  have hk := ValueIdx.contrEquiv1_symm_val dot_S256x256_S10000x256_S256x10000_1_1_0_0_n_n 256 rfl rfl k
  have el : dot_S256x256_S10000x256_S256x10000_1_1_0_0_n_n.lhsIdx (ix2 r c) ((ValueIdx.contrEquiv1 dot_S256x256_S10000x256_S256x10000_1_1_0_0_n_n 256 rfl rfl).symm k) = ix2 r k :=
    funext fun a => Fin.ext (by
      match a with
      | ⟨0, _⟩ => exact lhs_0 _ _
      | ⟨1, _⟩ => exact (lhs_1 _ _).trans hk)
  have er : dot_S256x256_S10000x256_S256x10000_1_1_0_0_n_n.rhsIdx (ix2 r c) ((ValueIdx.contrEquiv1 dot_S256x256_S10000x256_S256x10000_1_1_0_0_n_n 256 rfl rfl).symm k) = ix2 c k :=
    funext fun a => Fin.ext (by
      match a with
      | ⟨0, _⟩ => exact rhs_0 _ _
      | ⟨1, _⟩ => exact (rhs_1 _ _).trans hk)
  rw [el, er, shapeCast_self, xnV_apply]

/-- The mask at row `r` and class `c`: the class counter as a word against the row's label. -/
theorem maskV_apply (r : Fin 256) (c : Fin 10000) :
    maskV l (ix2 r c) = IntOp.cmpi .eq (BitVec.ofNat 32 c.val) (l (ix2 r (0 : Fin 1))) := by
  unfold maskV
  show IntOp.cmpi .eq (broadcastTo S256x10000 (iota .tc S1x10000 32 [1] iota_S1x10000_d1_w32) broadcasts_S1x10000_S256x10000 (ix2 r c))
      (broadcastTo S256x10000 (shapeCast S256x1 l shapeCasts_S256x1_S256x1) broadcasts_S256x1_S256x10000 (ix2 r c)) = _
  rw [broadcastTo_1b_ab_apply, broadcastTo_a1_ab_apply, iota_single_apply, shapeCast_self]

/-- The target logit of row `r`: the masked lane sum keeps the one class that is the row's label. -/
theorem tgtV_apply (r : Fin 256) (u : Fin 1) (h0 : 0 ≤ (l (ix2 r (0 : Fin 1))).toInt) (h1 : (l (ix2 r (0 : Fin 1))).toInt < 10000) :
    tgtV x0 w l (ix2 r u) = logit (rowOf x0 r) (matOf w) (labelCol (l (ix2 r (0 : Fin 1)))) := by
  unfold tgtV
  refine (shapeCast_a_a1_apply _ _ r u).trans ?_
  refine (laneSum_apply _ _ _ _ _ r).trans ?_
  rw [← sum_masked (logit (rowOf x0 r) (matOf w)) (labelCol (l (ix2 r (0 : Fin 1))))]
  refine Finset.sum_congr rfl fun k _ => ?_
  show Scalar.select (maskV l (ix2 r k)) (wfV x0 w (ix2 r k)) (Ideal.ofBits .f32 0x00000000#32) = _
  rw [maskV_apply, wfV_apply, Ideal.ofBits_zero_f32]
  by_cases hk : k = labelCol (l (ix2 r (0 : Fin 1)))
  · rw [if_pos hk, (mask_iff _ h0 h1 k).2 hk, select_one]
  · rw [if_neg hk, eq_zero_of_ne_one (fun h => hk ((mask_iff _ h0 h1 k).1 h)), select_zero]

/-- The sum over the classes of the exponentials of row `r`'s scaled logits. -/
theorem sumexpV_apply (r : Fin 256) (u : Fin 1) :
    sumexpV x0 w (ix2 r u) = ∑ c : Fin 10000, Ideal.exp (scale * logit (rowOf x0 r) (matOf w) c) := by
  unfold sumexpV
  refine (shapeCast_a_a1_apply _ _ r u).trans ?_
  refine (laneSum_apply _ _ _ _ _ r).trans ?_
  refine Finset.sum_congr rfl fun k _ => ?_
  show Ideal.exp (Ideal.ofBits .f32 0x41F00000#32 * wfV x0 w (ix2 r k)) = _
  rw [wfV_apply]

/-- ROW `r` OF WHAT THE BODY STORES is the specification's loss term of the block's row `r`, the weights and the row's
    label, for a label that is a column of the table. -/
theorem pay_apply (r : Fin 256) (h0 : 0 ≤ (l (ix2 r (0 : Fin 1))).toInt) (h1 : (l (ix2 r (0 : Fin 1))).toInt < 10000) :
    k0_pay1 (F := Ideal) x0 w l (ix2 r (0 : Fin 1)) = rowLoss (rowOf x0 r) (matOf w) (l (ix2 r (0 : Fin 1))) := by
  rw [pay_struct]
  show (scale * (tgtV x0 w l (ix2 r (0 : Fin 1)) - margin))
      - Ideal.log (Ideal.exp (scale * (tgtV x0 w l (ix2 r (0 : Fin 1)) - margin))
        + (sumexpV x0 w (ix2 r (0 : Fin 1)) - Ideal.exp (scale * tgtV x0 w l (ix2 r (0 : Fin 1))))) = _
  rw [tgtV_apply x0 w l r 0 h0 h1, sumexpV_apply]
  rfl

end Cert.KernelIdeal.RowValue

end
-- ==== Proof.KernelBlocks.lean ====
/-
  From the body's stored column to the kernel's result, at the extended reals.

  Grid point `t` fetches rows `256·t … 256·t + 255` of the embeddings and of the labels (viewed as a column), and the
  whole weight table (the host's change of its float format is the identity here); it stores a column of 256 loss
  terms, which is written back to rows `256·t …` of the `[16384, 1]` output. So what point `t` writes back is block
  `t` of ONE column, the specification's loss term row by row; the 64 blocks tile the output, so after the region the
  output is that column. The host lines after the region sum it from zero, divide by the row count and negate.
-/
import proofs.«408630_j77524159693169_1_alg».proof.Proof.Gen.KernelIdeal.Frame
import proofs.«408630_j77524159693169_1_alg».proof.Proof.KernelRow
import Idealize.ShloMosaic.Lib.Pipeline.Value
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx Cert.MarginLoss
open Idealize.SL Idealize.SL.Sem
open Idealize.ShloMosaic.Pipeline (Dat Cfg Window)

variable (m : (ℓ : Loc nD τ sig) → Buf (Elt Ideal) ℓ) (ρ : Dev nD → PrngReg)

/-- The three inputs on core `c`, at their literal types. -/
abbrev xarr (c : Dev nD) : FVec Ideal S16384x256 .f32 := m ((c : Thread nD τ).loc main_arg0)
abbrev larr (c : Dev nD) : IVec S16384 32 := m ((c : Thread nD τ).loc main_arg1)
abbrev warr (c : Dev nD) : FVec Ideal S10000x256 .f32 := m ((c : Thread nD τ).loc main_arg2)

theorem hz : (![0, 0] : Fin 2 → Nat) = fun _ => 0 := funext fun a => by fin_cases a <;> rfl

/-- The printed index maps over the grid: the embeddings, the labels and the output move one block of 256 rows per
    point; the weight table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The weight table as the region finds it: the host's change of float format, the identity on values. -/
theorem V_weights (c : Dev nD) (j : S10000x256.Idx) : (V m c main_v1 : S10000x256.Idx → EReal) j = warr m c j := by
  have e : (V m c main_v1 : S10000x256.Idx → EReal) = truncf .bf16 (warr m c) bitsLt_bf16_f32 := by
    show StableHlo.after hostOps0 (fun b => m (c, b)) (Proc.devRef .tc main_v1) = _
    after_results
  rw [e]
  rfl

/-- The labels as the region finds them: the host's view of the vector as a column. -/
theorem V_labels (c : Dev nD) (i : Fin 16384) (u : Fin 1) : (V m c main_v0 : S16384x1.Idx → BitVec 32) (ix2 i u) = larr m c (ix1 i) := by
  have e : (V m c main_v0 : S16384x1.Idx → BitVec 32) = shapeCast S16384x1 (larr m c) shapeCasts_S16384_S16384x1 := by
    show StableHlo.after hostOps0 (fun b => m (c, b)) (Proc.devRef .tc main_v0) = _
    after_results
    rfl
  rw [e]
  exact Idealize.ShloMosaic.Keepdims.shapeCast_a_a1_apply _ _ i u

/-- The blocks grid point `t` fetches, at their literal types. -/
abbrev xblk (c : Dev nD) (t : Fin cfg0.N) : FVec Ideal S256x256 .f32 := iblk m c 0 t
abbrev wblk (c : Dev nD) (t : Fin cfg0.N) : FVec Ideal S10000x256 .bf16 := iblk m c 1 t
abbrev lblk (c : Dev nD) (t : Fin cfg0.N) : IVec S256x1 32 := iblk m c 2 t

/-- Row `r` of grid point `t`'s block is row `256·t + r` of the array. -/
abbrev rowAt (t : Fin cfg0.N) (r : Fin 256) : Fin 16384 :=
  ⟨t.val * 256 + r.val, by have h : t.val < 64 := lt_of_lt_of_eq t.isLt N_0; have := r.isLt; omega⟩

/-- The embeddings block at point `t` is rows `256·t …` of the embeddings. -/
theorem xblk_apply (c : Dev nD) (t : Fin cfg0.N) (r d : Fin 256) :
    xblk m c t (ix2 r d) = xarr m c (ix2 (rowAt t r) d) := by
  show V m c main_arg0 (((cfg0.win 0).blk t).view.emb (ix2 r d)) = _
  refine (congrFun (V_main_arg0 m c) _).trans (congrArg (xarr m c) (funext fun a => Fin.ext ?_))
  obtain ⟨e0, e1, -⟩ := idx_facts t
  match a with
  | ⟨0, _⟩ => show win0_0.index t (0 : Fin 2) * 256 + 1 * r.val = t.val * 256 + r.val; omega
  | ⟨1, _⟩ => show win0_0.index t (1 : Fin 2) * 256 + 1 * d.val = d.val; omega

/-- The weights block at every point is the whole weight table. -/
theorem wblk_apply (c : Dev nD) (t : Fin cfg0.N) (k : Fin 10000) (d : Fin 256) :
    wblk m c t (ix2 k d) = warr m c (ix2 k d) := by
  show V m c main_v1 (((cfg0.win 1).blk t).view.emb (ix2 k d)) = _
  refine (congrArg (V m c main_v1 : S10000x256.Idx → EReal) (funext fun a => Fin.ext ?_)).trans (V_weights m c (ix2 k d))
  obtain ⟨-, -, e0, e1, -⟩ := idx_facts t
  match a with
  | ⟨0, _⟩ => show win0_1.index t (0 : Fin 2) * 10000 + 1 * k.val = k.val; omega
  | ⟨1, _⟩ => show win0_1.index t (1 : Fin 2) * 256 + 1 * d.val = d.val; omega

/-- The labels block at point `t` is rows `256·t …` of the labels. -/
theorem lblk_apply (c : Dev nD) (t : Fin cfg0.N) (r : Fin 256) (u : Fin 1) :
    lblk m c t (ix2 r u) = larr m c (ix1 (rowAt t r)) := by
  show V m c main_v0 (((cfg0.win 2).blk t).view.emb (ix2 r u)) = _
  refine (congrArg (V m c main_v0 : S16384x1.Idx → BitVec 32) (funext fun a => Fin.ext ?_)).trans (V_labels m c (rowAt t r) u)
  obtain ⟨-, -, -, -, e0, e1, -⟩ := idx_facts t
  match a with
  | ⟨0, _⟩ => show win0_2.index t (0 : Fin 2) * 256 + 1 * r.val = t.val * 256 + r.val; omega
  | ⟨1, _⟩ => show win0_2.index t (1 : Fin 2) * 1 + 1 * u.val = u.val; omega

/-- The column the region leaves in the output: the specification's loss term, row by row. -/
def lossCol (c : Dev nD) : FVec Ideal S16384x1 .f32 := fun j =>
  rowLoss (rowOf (xarr m c) ⟨(j 0).val, idx2_lt0 j⟩) (matOf (warr m c)) (larr m c (ix1 ⟨(j 0).val, idx2_lt0 j⟩))

theorem lossCol_apply (c : Dev nD) (i : Fin 16384) (u : Fin 1) :
    lossCol m c (ix2 i u) = rowLoss (rowOf (xarr m c) i) (matOf (warr m c)) (larr m c (ix1 i)) := rfl

/-- WHAT POINT `t` WRITES BACK is block `t` of that column. -/
theorem flushed_eq (c : Dev nD)
    (hlab : ∀ i : Fin 16384, 0 ≤ (larr m c (ix1 i)).toInt ∧ (larr m c (ix1 i)).toInt < 10000) (t : Fin cfg0.N) :
    (dats m 0 c).flushed 3 t = ((cfg0.win 3).blk t).view.read (Elt Ideal) (lossCol m c) := by
  show (cfg0.win 3).cut (grid0.coords t) ((dats m 0 c).after 3 t) = _
  rw [after0_3]
  unfold out0_3
  rw [View.canon_unit_zero hz]
  simp only [View.ld_unit_zero (S := S256x256) hz, View.ld_unit_zero (S := S10000x256) hz, View.ld_unit_zero (S := S256x1) hz]
  refine funext fun (y : S256x1.Idx) => ?_
  obtain ⟨r, u, rfl⟩ : ∃ (r : Fin 256) (u : Fin 1), y = ix2 r u := ⟨y 0, y 1, eq_ix2 y⟩
  obtain rfl : u = 0 := Subsingleton.elim _ _
  show k0_pay1 (F := Ideal) (xblk m c t) (wblk m c t) (lblk m c t) (ix2 r (0 : Fin 1))
    = lossCol m c (((cfg0.win 3).blk t).view.emb (ix2 r (0 : Fin 1)))
  have hl := lblk_apply m c t r 0
  have hr := hlab (rowAt t r)
  refine (RowValue.pay_apply (xblk m c t) (wblk m c t) (lblk m c t) r (by rw [hl]; exact hr.1) (by rw [hl]; exact hr.2)).trans ?_
  have he : ((cfg0.win 3).blk t).view.emb (ix2 r (0 : Fin 1)) = ix2 (rowAt t r) (0 : Fin 1) := by
    obtain ⟨-, -, -, -, -, -, e0, e1⟩ := idx_facts t
    funext a; apply Fin.ext
    match a with
    | ⟨0, _⟩ => show win0_3.index t (0 : Fin 2) * 256 + 1 * r.val = t.val * 256 + r.val; omega
    | ⟨1, _⟩ => show win0_3.index t (1 : Fin 2) * 1 + 1 * 0 = 0; omega
  rw [he, lossCol_apply, hl,
    show rowOf (xblk m c t) r = rowOf (xarr m c) (rowAt t r) from funext fun d => xblk_apply m c t r d,
    show matOf (wblk m c t) = matOf (warr m c) from funext fun k => funext fun d => wblk_apply m c t k d]

/-- An index of the output is in point `t`'s block iff each coordinate is in the block's range on its axis. -/
theorem mem_blk (t : Fin cfg0.N) (i : S16384x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v2).slice (win0_3.rect t)).set ↔ _
  rw [View.set_slice_whole, Rect.mem_set_unit]
  exact Iff.rfl

/-- The 64 blocks tile the output: row `i` is in the block of point `i / 256`. -/
theorem cover (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have ht : (i 0).val / 256 < cfg0.N := lt_of_lt_of_eq (by omega : (i 0).val / 256 < 64) N_0.symm
  refine ⟨⟨(i 0).val / 256, ht⟩, flush0_3 _, ?_⟩
  rw [mem_blk]
  obtain ⟨-, -, -, -, -, -, e0, e1⟩ := idx_facts ⟨(i 0).val / 256, ht⟩
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, ht⟩ (1 : Fin 2) * 1 ≤ (i 1).val
      ∧ (i 1).val < win0_3.index ⟨(i 0).val / 256, ht⟩ (1 : Fin 2) * 1 + 1
    omega

/-- THE OUTPUT after the region is the column of loss terms. -/
theorem final (c : Dev nD)
    (hlab : ∀ i : Fin 16384, 0 ≤ (larr m c (ix1 i)).toInt ∧ (larr m c (ix1 i)).toInt < 10000) :
    (dats m 0 c).arrAt 3 cfg0.N = lossCol m c :=
  (dats m 0 c).arrAt_eq_of_cover 3 (lossCol m c) (fun t _ => flushed_eq m c hlab t) cover

/-- THE KERNEL'S RESULT: the host lines after the region sum the column from zero, divide by the row count and negate. -/
theorem tail_eq (c : Dev nD)
    (hlab : ∀ i : Fin 16384, 0 ≤ (larr m c (ix1 i)).toInt ∧ (larr m c (ix1 i)).toInt < 10000) :
    Pipeline.afterTail₀ cfgs (dats m) 0 (V0 m) [hostOps1] c main_v5 = fun _ => result (xarr m c) (larr m c) (warr m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v2)
      = lossCol m c :=
    (Pipeline.withArrays_arr spec0 launch0.win.arr_inj c _ _ 3).trans (final m c hlab)
  rw [hw]
  funext j
  show -(Ideal.div (Host.reduceAdd (lossCol m c) (constant (F := Ideal) S_ .f32 0x00000000#32) reducesTo_S16384x1_S_d0_1 h_S_ j) rows) = _
  simp only [Host.reduceAdd, Ideal.hostReduceAdd_def]
  rw [Ideal.hostReduceAdd_total reducesTo_S16384x1_S_d0_1 (fun b => b.elim0) (lossCol m c) _ j]
  have hz0 : constant (F := Ideal) S_ .f32 0x00000000#32 (Shape.Idx.first h_S_) = 0 := Ideal.ofBits_zero_f32
  rw [hz0, zero_add, sum_idx_col]
  rfl

/-- THE KERNEL'S RUN, READ: every weakly fair execution ends with the result at the specification of the three inputs
    and the inputs unchanged, for labels that are columns of the weight table. -/
theorem run (hlab : ∀ (c : Dev nD) (i : Fin 16384), 0 ≤ (larr m c (ix1 i)).toInt ∧ (larr m c (ix1 i)).toInt < 10000) :
    θ_run defs (onTc (τ := τ) (main (F := Ideal))) ⟨m, fun _ => 0, ρ⟩ fun r => ∀ c : Dev nD,
      r.2.mem ((c.tc : Thread nD τ).loc main_v5) = (fun _ => result (xarr m c) (larr m c) (warr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c (hlab c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Blocks

end
-- ==== Proof.lean ====
/-
  The kernel and the reference compute the same number on the extended reals: minus the mean, over the 16384 rows,
  of the loss term

      L = num − log (exp num + ((∑ c, exp (30 · wf c)) − exp (30 · tgt))),    num = 30 · (tgt − 0.4),

  where `wf c` is the normalised row against row `c` of the weights and `tgt` is `wf` at the row's label.

  The two programs differ in three places, none of which changes the value where the precondition holds.
  * The kernel multiplies the row by `s^(-1/2)` (`s` the row's squared norm), the reference divides it by `√s`: one
    function at every `0 < s` (Proof/MarginLoss.lean, `mul_rsqrt_eq_div_sqrt`). The precondition keeps `s` positive.
  * The kernel takes the target logit as the sum over the classes of the logits masked by "class = label", the
    reference gathers it: the masked sum keeps exactly the label's column, for a label that is a column of the table
    (the precondition's other added conjunct), and for such a label the reference's gather neither wraps the index nor
    selects its out-of-range fill.
  * The kernel casts the normalised row and the weights to bf16 and works block by block (256 rows per grid point,
    the whole weight table at every point); a change of float format is the identity on the extended reals, a matmul
    onto a zero accumulator is the host's contraction, a lane sum is the host's sum, and the 64 blocks tile the rows.
  The kernel's value is read off its generated frame (Proof/KernelRow.lean: a row of what the body stores;
  Proof/KernelBlocks.lean: the blocks, the output array, the host lines after the region), the reference's off its
  run read operation by operation (Proof/RefIsSpec.lean); both are `MarginLoss.result` of the three inputs.
  The three frames are the programs' generated runs; the idealization rewrote nothing, so `preserves` is `True`.
-/
import proofs.«408630_j77524159693169_1_alg».proof.Defs
import proofs.«408630_j77524159693169_1_alg».proof.Proof.Gen.Kernel
import proofs.«408630_j77524159693169_1_alg».proof.Proof.Gen.Kernel.Skeleton
import proofs.«408630_j77524159693169_1_alg».proof.Proof.Gen.Kernel.Launch
import proofs.«408630_j77524159693169_1_alg».proof.Proof.Gen.Kernel.Points
import proofs.«408630_j77524159693169_1_alg».proof.Proof.Gen.Kernel.Frame
import proofs.«408630_j77524159693169_1_alg».proof.Proof.Gen.KernelIdeal
import proofs.«408630_j77524159693169_1_alg».proof.Proof.Gen.KernelIdeal.Skeleton
import proofs.«408630_j77524159693169_1_alg».proof.Proof.Gen.KernelIdeal.Launch
import proofs.«408630_j77524159693169_1_alg».proof.Proof.Gen.KernelIdeal.Points
import proofs.«408630_j77524159693169_1_alg».proof.Proof.Gen.KernelIdeal.Frame
import proofs.«408630_j77524159693169_1_alg».proof.Proof.Gen.ReferenceIdeal
import proofs.«408630_j77524159693169_1_alg».proof.Proof.Gen.Pre_finite_inputs
import proofs.«408630_j77524159693169_1_alg».proof.Proof.RefRun
import proofs.«408630_j77524159693169_1_alg».proof.Proof.RefRead
import proofs.«408630_j77524159693169_1_alg».proof.Proof.MarginLoss
import proofs.«408630_j77524159693169_1_alg».proof.Proof.PreFacts
import proofs.«408630_j77524159693169_1_alg».proof.Proof.RefIsSpec
import proofs.«408630_j77524159693169_1_alg».proof.Proof.KernelBlocks
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the specification of the three inputs: the kernel by its run read block by block, the
    reference by its run read operation by operation, under the two facts the precondition gives. -/
theorem algebraic : Cert.algebraic_KernelIdeal_ReferenceIdeal := by
  intro m ρ m' ρ' hpre hagree
  have hf := fun c => Cert.PreFacts.of_pre _ _ _ (hpre c)
  refine ⟨fun c => fun _ => Cert.MarginLoss.result (Cert.KernelIdeal.Blocks.xarr m c) (Cert.KernelIdeal.Blocks.larr m c)
      (Cert.KernelIdeal.Blocks.warr m c), Cert.KernelIdeal.Blocks.run m ρ (fun c => (hf c).1), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v26_eq, (hagree c).1, (hagree c).2.1, (hagree c).2.2]
  exact Cert.ReferenceIdeal.RefSpec.result_eq _ _ _ (hf c).1 (hf c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
